-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x65536 : Shape := ⟨2, ![512, 65536]⟩
abbrev S64x1001 : Shape := ⟨2, ![64, 1001]⟩
abbrev S_ : Shape := ⟨0, ![]⟩

class Facts : Prop where
  bcast_S_S512x65536 : S_.BroadcastsInDim S512x65536 (![] : Fin 0 → Fin S512x65536.rank)
  reducesTo_S512x65536_S_d0_1 : S512x65536.ReducesTo [0, 1] S_
  h_S_ : 0 < S_.numel
  bcast_S_S64x1001 : S_.BroadcastsInDim S64x1001 (![] : Fin 0 → Fin S64x1001.rank)
  reducesTo_S64x1001_S_d0_1 : S64x1001.ReducesTo [0, 1] S_

variable [Facts]

def fn {F : FTy → Type} [FloatOps F] (main_arg0 : FVec F S512x65536 .f32) (main_arg1 : FVec F S64x1001 .f32) (main_arg2 : FVec F S64x1001 .f32) : IVec S_ 1 :=
  let main_v0 : FVec F S512x65536 .f32 := Host.absf main_arg0
  let main_cst : FVec F S_ .f32 := constant S_ .f32 0x7F800000#32
  let main_v1 : FVec F S512x65536 .f32 := broadcastInDim S512x65536 ![] bcast_S_S512x65536 main_cst
  let main_v2 : IVec S512x65536 1 := cmpf .olt main_v0 main_v1
  let main_c : IVec S_ 1 := constantI S_ 1 1#1
  let main_v3 : IVec S_ 1 := (fun x v => Host.reduce IntOp.andi x v reducesTo_S512x65536_S_d0_1 h_S_) main_v2 main_c
  let main_v4 : FVec F S64x1001 .f32 := Host.absf main_arg1
  let main_cst_0 : FVec F S_ .f32 := constant S_ .f32 0x7F800000#32
  let main_v5 : FVec F S64x1001 .f32 := broadcastInDim S64x1001 ![] bcast_S_S64x1001 main_cst_0
  let main_v6 : IVec S64x1001 1 := cmpf .olt main_v4 main_v5
  let main_c_1 : IVec S_ 1 := constantI S_ 1 1#1
  let main_v7 : IVec S_ 1 := (fun x v => Host.reduce IntOp.andi x v reducesTo_S64x1001_S_d0_1 h_S_) main_v6 main_c_1
  let main_v8 : IVec S_ 1 := andi main_v3 main_v7
  let main_v9 : FVec F S64x1001 .f32 := Host.absf main_arg2
  let main_cst_2 : FVec F S_ .f32 := constant S_ .f32 0x7F800000#32
  let main_v10 : FVec F S64x1001 .f32 := broadcastInDim S64x1001 ![] bcast_S_S64x1001 main_cst_2
  let main_v11 : IVec S64x1001 1 := cmpf .olt main_v9 main_v10
  let main_c_3 : IVec S_ 1 := constantI S_ 1 1#1
  let main_v12 : IVec S_ 1 := (fun x v => Host.reduce IntOp.andi x v reducesTo_S64x1001_S_d0_1 h_S_) main_v11 main_c_3
  let main_v13 : IVec S_ 1 := andi main_v8 main_v12
  main_v13
-- ==== Kernel.lean ====
abbrev S512x65536 : Shape := ⟨2, ![512, 65536]⟩
abbrev S64x1001 : Shape := ⟨2, ![64, 1001]⟩
abbrev S_ : Shape := ⟨0, ![]⟩
abbrev S64064 : Shape := ⟨1, ![64064]⟩
abbrev S65536 : Shape := ⟨1, ![65536]⟩
abbrev S64064x1 : Shape := ⟨2, ![64064, 1]⟩
abbrev S256x256 : Shape := ⟨2, ![256, 256]⟩
abbrev S1x65536 : Shape := ⟨2, ![1, 65536]⟩
abbrev S256x4096 : Shape := ⟨2, ![256, 4096]⟩
abbrev S1x4096 : Shape := ⟨2, ![1, 4096]⟩

abbrev nBuf : Space → Nat
  | .hbm => 86
  | .vmem => 6
  | .smem => 0
  | _ => 0

abbrev bufTy : (tb : Table) → Fin (tcTables nBuf tb) → BufTy
  | .hbm, ⟨0, _⟩ => ⟨S512x65536, .f32⟩
  | .hbm, ⟨1, _⟩ => ⟨S64x1001, .f32⟩
  | .hbm, ⟨2, _⟩ => ⟨S64x1001, .f32⟩
  | .hbm, ⟨3, _⟩ => ⟨S_, .f32⟩
  | .hbm, ⟨4, _⟩ => ⟨S64x1001, .f32⟩
  | .hbm, ⟨5, _⟩ => ⟨S64x1001, .f32⟩
  | .hbm, ⟨6, _⟩ => ⟨S_, .f32⟩
  | .hbm, ⟨7, _⟩ => ⟨S64x1001, .f32⟩
  | .hbm, ⟨8, _⟩ => ⟨S64x1001, .f32⟩
  | .hbm, ⟨9, _⟩ => ⟨S64x1001, .f32⟩
  | .hbm, ⟨10, _⟩ => ⟨S64x1001, .f32⟩
  | .hbm, ⟨11, _⟩ => ⟨S64x1001, .f32⟩
  | .hbm, ⟨12, _⟩ => ⟨S64x1001, .f32⟩
  | .hbm, ⟨13, _⟩ => ⟨S_, .f32⟩
  | .hbm, ⟨14, _⟩ => ⟨S64x1001, .f32⟩
  | .hbm, ⟨15, _⟩ => ⟨S64x1001, .i1⟩
  | .hbm, ⟨16, _⟩ => ⟨S_, .f32⟩
  | .hbm, ⟨17, _⟩ => ⟨S64x1001, .f32⟩
  | .hbm, ⟨18, _⟩ => ⟨S64x1001, .i1⟩
  | .hbm, ⟨19, _⟩ => ⟨S64x1001, .i1⟩
  | .hbm, ⟨20, _⟩ => ⟨S_, .f32⟩
  | .hbm, ⟨21, _⟩ => ⟨S64x1001, .f32⟩
  | .hbm, ⟨22, _⟩ => ⟨S64x1001, .i1⟩
  | .hbm, ⟨23, _⟩ => ⟨S64x1001, .i1⟩
  | .hbm, ⟨24, _⟩ => ⟨S_, .f32⟩
  | .hbm, ⟨25, _⟩ => ⟨S64x1001, .f32⟩
  | .hbm, ⟨26, _⟩ => ⟨S64x1001, .i1⟩
  | .hbm, ⟨27, _⟩ => ⟨S64x1001, .i1⟩
  | .hbm, ⟨28, _⟩ => ⟨S64x1001, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S64x1001, .i32⟩
  | .hbm, ⟨33, _⟩ => ⟨S64x1001, .i32⟩
  | .hbm, ⟨34, _⟩ => ⟨S_, .i32⟩
  | .hbm, ⟨35, _⟩ => ⟨S64x1001, .i32⟩
  | .hbm, ⟨36, _⟩ => ⟨S64x1001, .i32⟩
  | .hbm, ⟨37, _⟩ => ⟨S64x1001, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S64x1001, .i32⟩
  | .hbm, ⟨42, _⟩ => ⟨S64x1001, .i32⟩
  | .hbm, ⟨43, _⟩ => ⟨S_, .i32⟩
  | .hbm, ⟨44, _⟩ => ⟨S64x1001, .i32⟩
  | .hbm, ⟨45, _⟩ => ⟨S64x1001, .i32⟩
  | .hbm, ⟨46, _⟩ => ⟨S_, .i32⟩
  | .hbm, ⟨47, _⟩ => ⟨S64x1001, .i32⟩
  | .hbm, ⟨48, _⟩ => ⟨S64x1001, .i32⟩
  | .hbm, ⟨49, _⟩ => ⟨S64x1001, .i32⟩
  | .hbm, ⟨50, _⟩ => ⟨S64064, .i32⟩
  | .hbm, ⟨51, _⟩ => ⟨S_, .i32⟩
  | .hbm, ⟨52, _⟩ => ⟨S65536, .i32⟩
  | .hbm, ⟨53, _⟩ => ⟨S64064, .i1⟩
  | .hbm, ⟨54, _⟩ => ⟨S64064, .i32⟩
  | .hbm, ⟨55, _⟩ => ⟨S_, .i32⟩
  | .hbm, ⟨56, _⟩ => ⟨S64064, .i32⟩
  | .hbm, ⟨57, _⟩ => ⟨S64064, .i1⟩
  | .hbm, ⟨58, _⟩ => ⟨S_, .i32⟩
  | .hbm, ⟨59, _⟩ => ⟨S64064, .i32⟩
  | .hbm, ⟨60, _⟩ => ⟨S64064, .i32⟩
  | .hbm, ⟨61, _⟩ => ⟨S64064, .i32⟩
  | .hbm, ⟨62, _⟩ => ⟨S64064x1, .i32⟩
  | .hbm, ⟨63, _⟩ => ⟨S65536, .i32⟩
  | .hbm, ⟨64, _⟩ => ⟨S65536, .f32⟩
  | .hbm, ⟨65, _⟩ => ⟨S_, .f32⟩
  | .hbm, ⟨66, _⟩ => ⟨S65536, .f32⟩
  | .hbm, ⟨67, _⟩ => ⟨S65536, .f32⟩
  | .hbm, ⟨68, _⟩ => ⟨S256x256, .f32⟩
  | .hbm, ⟨69, _⟩ => ⟨S256x256, .f32⟩
  | .hbm, ⟨70, _⟩ => ⟨S256x256, .f32⟩
  | .hbm, ⟨71, _⟩ => ⟨S65536, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S65536, .f32⟩
  | .hbm, ⟨83, _⟩ => ⟨S65536, .f32⟩
  | .hbm, ⟨84, _⟩ => ⟨S1x65536, .f32⟩
  | .hbm, ⟨85, _⟩ => ⟨S512x65536, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S512x65536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_c_5 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_c_7 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v22 : Ref sig .tc := ⟨.hbm, 45, rfl⟩
abbrev main_c_8 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_9 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_10 : Ref sig .tc := ⟨.hbm, 55, rfl⟩
abbrev main_v30 : Ref sig .tc := ⟨.hbm, 56, rfl⟩
abbrev main_v31 : Ref sig .tc := ⟨.hbm, 57, rfl⟩
abbrev main_c_11 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_12 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_call2_v0 : Ref sig .tc := ⟨.hbm, 69, rfl⟩
abbrev main_v41 : Ref sig .tc := ⟨.hbm, 70, rfl⟩
abbrev main_v42 : Ref sig .tc := ⟨.hbm, 71, rfl⟩
abbrev main_cst_13 : Ref sig .tc := ⟨.hbm, 72, rfl⟩
abbrev main_v43 : Ref sig .tc := ⟨.hbm, 73, rfl⟩
abbrev main_cst_14 : Ref sig .tc := ⟨.hbm, 74, rfl⟩
abbrev main_v44 : Ref sig .tc := ⟨.hbm, 75, rfl⟩
abbrev main_cst_15 : Ref sig .tc := ⟨.hbm, 76, rfl⟩
abbrev main_v45 : Ref sig .tc := ⟨.hbm, 77, rfl⟩
abbrev main_cst_16 : Ref sig .tc := ⟨.hbm, 78, rfl⟩
abbrev main_v46 : Ref sig .tc := ⟨.hbm, 79, rfl⟩
abbrev main_cst_17 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S64x1001 : S_.BroadcastsInDim S64x1001 (![] : Fin 0 → Fin S64x1001.rank)
  shapeCasts_S64x1001_S64064 : S64x1001.ShapeCasts S64064
  bcast_S_S65536 : S_.BroadcastsInDim S65536 (![] : Fin 0 → Fin S65536.rank)
  natLt_1_32 : 1 < 32
  bcast_S_S64064 : S_.BroadcastsInDim S64064 (![] : Fin 0 → Fin S64064.rank)
  bcast_S64064_S64064x1_0 : S64064.BroadcastsInDim S64064x1 (![0] : Fin 1 → Fin S64064x1.rank)
  shapeCasts_S65536_S256x256 : S65536.ShapeCasts S256x256
  transposes_S256x256_S256x256_1_0 : S256x256.Transposes [1, 0] S256x256
  shapeCasts_S256x256_S65536 : S256x256.ShapeCasts S65536
  reducesTo_S65536_S_d0 : S65536.ReducesTo [0] S_
  h_S_ : 0 < S_.numel
  shapeCasts_S65536_S1x65536 : S65536.ShapeCasts S1x65536
  inb_S256x4096_S256x4096_0_0 : ∀ a, (![0, 0] : Fin 2 → Nat) a + S256x4096.size a ≤ S256x4096.size a
  h_S256x4096 : 0 < S256x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  scatter_S65536_S64064x1_S64064_n_0_0_1_wf : ScatterDims.WF S65536 S64064x1 S64064 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S512x65536.size a
  hwx0_0 : ∀ i : grid0.Coords, EltTy.bits .f32 = 32 ∨ (Rect.block (s := S512x65536) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x65536.size a
  hwx0_1 : ∀ i : grid0.Coords, EltTy.bits .f32 = 32 ∨ (Rect.block (s := S1x65536) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S512x65536.size a
  hwx0_2 : ∀ i : grid0.Coords, EltTy.bits .f32 = 32 ∨ (Rect.block (s := S512x65536) S256x4096.size (cc0_transform_2 i) (hinb0_2 i)).WholeWords (EltTy.packing .f32)

variable [Facts₀]

def scatter_S65536_S64064x1_S64064_n_0_0_1 : ScatterDims S65536 S64064x1 S64064 where
  updateWindowDims := []
  insertedWindowDims := [0]
  scatterDimsToOperandDims := [0]
  indexVectorDim := 1
  wf := scatter_S65536_S64064x1_S64064_n_0_0_1_wf

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v51) S256x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x65536 : Shape := ⟨2, ![512, 65536]⟩
abbrev S64x1001 : Shape := ⟨2, ![64, 1001]⟩
abbrev S_ : Shape := ⟨0, ![]⟩
abbrev S64064 : Shape := ⟨1, ![64064]⟩
abbrev S65536 : Shape := ⟨1, ![65536]⟩
abbrev S64064x1 : Shape := ⟨2, ![64064, 1]⟩
abbrev S256x256 : Shape := ⟨2, ![256, 256]⟩
abbrev S1x65536 : Shape := ⟨2, ![1, 65536]⟩

abbrev nBuf : Space → Nat
  | .hbm => 87
  | .vmem => 0
  | .smem => 0
  | _ => 0

abbrev bufTy : (tb : Table) → Fin (tcTables nBuf tb) → BufTy
  | .hbm, ⟨0, _⟩ => ⟨S512x65536, .f32⟩
  | .hbm, ⟨1, _⟩ => ⟨S64x1001, .f32⟩
  | .hbm, ⟨2, _⟩ => ⟨S64x1001, .f32⟩
  | .hbm, ⟨3, _⟩ => ⟨S_, .f32⟩
  | .hbm, ⟨4, _⟩ => ⟨S64x1001, .f32⟩
  | .hbm, ⟨5, _⟩ => ⟨S64x1001, .f32⟩
  | .hbm, ⟨6, _⟩ => ⟨S_, .f32⟩
  | .hbm, ⟨7, _⟩ => ⟨S64x1001, .f32⟩
  | .hbm, ⟨8, _⟩ => ⟨S64x1001, .f32⟩
  | .hbm, ⟨9, _⟩ => ⟨S64x1001, .f32⟩
  | .hbm, ⟨10, _⟩ => ⟨S64x1001, .f32⟩
  | .hbm, ⟨11, _⟩ => ⟨S64x1001, .f32⟩
  | .hbm, ⟨12, _⟩ => ⟨S64x1001, .f32⟩
  | .hbm, ⟨13, _⟩ => ⟨S_, .f32⟩
  | .hbm, ⟨14, _⟩ => ⟨S64x1001, .f32⟩
  | .hbm, ⟨15, _⟩ => ⟨S64x1001, .i1⟩
  | .hbm, ⟨16, _⟩ => ⟨S_, .f32⟩
  | .hbm, ⟨17, _⟩ => ⟨S64x1001, .f32⟩
  | .hbm, ⟨18, _⟩ => ⟨S64x1001, .i1⟩
  | .hbm, ⟨19, _⟩ => ⟨S64x1001, .i1⟩
  | .hbm, ⟨20, _⟩ => ⟨S_, .f32⟩
  | .hbm, ⟨21, _⟩ => ⟨S64x1001, .f32⟩
  | .hbm, ⟨22, _⟩ => ⟨S64x1001, .i1⟩
  | .hbm, ⟨23, _⟩ => ⟨S64x1001, .i1⟩
  | .hbm, ⟨24, _⟩ => ⟨S_, .f32⟩
  | .hbm, ⟨25, _⟩ => ⟨S64x1001, .f32⟩
  | .hbm, ⟨26, _⟩ => ⟨S64x1001, .i1⟩
  | .hbm, ⟨27, _⟩ => ⟨S64x1001, .i1⟩
  | .hbm, ⟨28, _⟩ => ⟨S64x1001, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S64x1001, .i32⟩
  | .hbm, ⟨33, _⟩ => ⟨S64x1001, .i32⟩
  | .hbm, ⟨34, _⟩ => ⟨S_, .i32⟩
  | .hbm, ⟨35, _⟩ => ⟨S64x1001, .i32⟩
  | .hbm, ⟨36, _⟩ => ⟨S64x1001, .i32⟩
  | .hbm, ⟨37, _⟩ => ⟨S64x1001, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S64x1001, .i32⟩
  | .hbm, ⟨42, _⟩ => ⟨S64x1001, .i32⟩
  | .hbm, ⟨43, _⟩ => ⟨S_, .i32⟩
  | .hbm, ⟨44, _⟩ => ⟨S64x1001, .i32⟩
  | .hbm, ⟨45, _⟩ => ⟨S64x1001, .i32⟩
  | .hbm, ⟨46, _⟩ => ⟨S_, .i32⟩
  | .hbm, ⟨47, _⟩ => ⟨S64x1001, .i32⟩
  | .hbm, ⟨48, _⟩ => ⟨S64x1001, .i32⟩
  | .hbm, ⟨49, _⟩ => ⟨S64x1001, .i32⟩
  | .hbm, ⟨50, _⟩ => ⟨S64064, .i32⟩
  | .hbm, ⟨51, _⟩ => ⟨S_, .i32⟩
  | .hbm, ⟨52, _⟩ => ⟨S65536, .i32⟩
  | .hbm, ⟨53, _⟩ => ⟨S64064, .i1⟩
  | .hbm, ⟨54, _⟩ => ⟨S64064, .i32⟩
  | .hbm, ⟨55, _⟩ => ⟨S_, .i32⟩
  | .hbm, ⟨56, _⟩ => ⟨S64064, .i32⟩
  | .hbm, ⟨57, _⟩ => ⟨S64064, .i1⟩
  | .hbm, ⟨58, _⟩ => ⟨S_, .i32⟩
  | .hbm, ⟨59, _⟩ => ⟨S64064, .i32⟩
  | .hbm, ⟨60, _⟩ => ⟨S64064, .i32⟩
  | .hbm, ⟨61, _⟩ => ⟨S64064, .i32⟩
  | .hbm, ⟨62, _⟩ => ⟨S64064x1, .i32⟩
  | .hbm, ⟨63, _⟩ => ⟨S65536, .i32⟩
  | .hbm, ⟨64, _⟩ => ⟨S65536, .f32⟩
  | .hbm, ⟨65, _⟩ => ⟨S_, .f32⟩
  | .hbm, ⟨66, _⟩ => ⟨S65536, .f32⟩
  | .hbm, ⟨67, _⟩ => ⟨S65536, .f32⟩
  | .hbm, ⟨68, _⟩ => ⟨S256x256, .f32⟩
  | .hbm, ⟨69, _⟩ => ⟨S256x256, .f32⟩
  | .hbm, ⟨70, _⟩ => ⟨S256x256, .f32⟩
  | .hbm, ⟨71, _⟩ => ⟨S65536, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S1x65536, .f32⟩
  | .hbm, ⟨79, _⟩ => ⟨S512x65536, .f32⟩
  | .hbm, ⟨80, _⟩ => ⟨S512x65536, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S512x65536, .f32⟩
  | .hbm, ⟨86, _⟩ => ⟨S512x65536, .f32⟩
  | _, _ => ⟨S512x65536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c : Ref sig .tc := ⟨.hbm, 29, rfl⟩
abbrev main_c_5 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v20 : Ref sig .tc := ⟨.hbm, 36, rfl⟩
abbrev main_v21 : Ref sig .tc := ⟨.hbm, 37, rfl⟩
abbrev main_c_6 : Ref sig .tc := ⟨.hbm, 38, rfl⟩
abbrev main_c_7 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v22 : Ref sig .tc := ⟨.hbm, 45, rfl⟩
abbrev main_c_8 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_9 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_10 : Ref sig .tc := ⟨.hbm, 55, rfl⟩
abbrev main_v30 : Ref sig .tc := ⟨.hbm, 56, rfl⟩
abbrev main_v31 : Ref sig .tc := ⟨.hbm, 57, rfl⟩
abbrev main_c_11 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_12 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_call2_v0 : Ref sig .tc := ⟨.hbm, 69, rfl⟩
abbrev main_v41 : Ref sig .tc := ⟨.hbm, 70, rfl⟩
abbrev main_v42 : Ref sig .tc := ⟨.hbm, 71, rfl⟩
abbrev main_cst_13 : Ref sig .tc := ⟨.hbm, 72, rfl⟩
abbrev main_v43 : Ref sig .tc := ⟨.hbm, 73, rfl⟩
abbrev main_cst_14 : Ref sig .tc := ⟨.hbm, 74, rfl⟩
abbrev main_v44 : Ref sig .tc := ⟨.hbm, 75, rfl⟩
abbrev main_cst_15 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_16 : Ref sig .tc := ⟨.hbm, 81, rfl⟩
abbrev main_v49 : Ref sig .tc := ⟨.hbm, 82, rfl⟩
abbrev main_cst_17 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩

abbrev nD : Nat := 1
abbrev τ : Topo := Topo.v7x

variable {F : FTy → Type} [FloatOps F]

class Facts₀ : Prop where
  bcast_S_S64x1001 : S_.BroadcastsInDim S64x1001 (![] : Fin 0 → Fin S64x1001.rank)
  shapeCasts_S64x1001_S64064 : S64x1001.ShapeCasts S64064
  bcast_S_S65536 : S_.BroadcastsInDim S65536 (![] : Fin 0 → Fin S65536.rank)
  natLt_1_32 : 1 < 32
  bcast_S_S64064 : S_.BroadcastsInDim S64064 (![] : Fin 0 → Fin S64064.rank)
  bcast_S64064_S64064x1_0 : S64064.BroadcastsInDim S64064x1 (![0] : Fin 1 → Fin S64064x1.rank)
  shapeCasts_S65536_S256x256 : S65536.ShapeCasts S256x256
  transposes_S256x256_S256x256_1_0 : S256x256.Transposes [1, 0] S256x256
  shapeCasts_S256x256_S65536 : S256x256.ShapeCasts S65536
  reducesTo_S65536_S_d0 : S65536.ReducesTo [0] S_
  h_S_ : 0 < S_.numel
  bcast_S65536_S1x65536_1 : S65536.BroadcastsInDim S1x65536 (![1] : Fin 1 → Fin S1x65536.rank)
  bcast_S1x65536_S512x65536_0_1 : S1x65536.BroadcastsInDim S512x65536 (![0, 1] : Fin 2 → Fin S512x65536.rank)
  bcast_S_S512x65536 : S_.BroadcastsInDim S512x65536 (![] : Fin 0 → Fin S512x65536.rank)
  scatter_S65536_S64064x1_S64064_n_0_0_1_wf : ScatterDims.WF S65536 S64064x1 S64064 [] [0] [0] 1

variable [Facts₀]

def scatter_S65536_S64064x1_S64064_n_0_0_1 : ScatterDims S65536 S64064x1 S64064 where
  updateWindowDims := []
  insertedWindowDims := [0]
  scatterDimsToOperandDims := [0]
  indexVectorDim := 1
  wf := scatter_S65536_S64064x1_S64064_n_0_0_1_wf

class Facts : Prop extends Facts₀ where

variable [Facts]
-- ==== Proof.KernelBlocks.lean ====
/-
  The kernel's result array as ONE function of the two arrays its region reads.

  The grid is 2 × 16; point `(a, b)` works on the 256 × 4096 block of the input at block index `(a, b)`, on the
  1 × 4096 block of the one-row multiplier at block index `(0, b)`, and writes the block of the result at block
  index `(a, b)`. The body stores, at `(p, q)` of its block, the input's entry times the multiplier's entry `(0, q)`
  (the row broadcast down the block). Entry `(p, q)` of a block at block index `(a, b)` is entry
  `(256 a + p, 4096 b + q)` of its array, so what a point writes back is its block of
  `rowScaled x r : (i, j) ↦ x[i, j] · r[0, j]`; the 32 blocks tile the 512 × 65536 result (the block holding
  `(i, j)` is at `(i / 256, j / 4096)`), hence the result array IS `rowScaled` of the input and the multiplier row.
-/
import proofs.«114950_j53300544143592_1_alg».proof.Proof.Gen.KernelIdeal.Value
import Idealize.ShloMosaic.Lib.ValueIdx

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- Entry `(i, j)` of the array times entry `(0, j)` of the one-row array. -/
def rowScaled (x : Vec F S512x65536 .f32) (r : Vec F S1x65536 .f32) : Vec F S512x65536 .f32 :=
  fun i => FloatOps.mulf (x i) (r (ix2 (0 : Fin 1) (i 1)))

theorem zeroOff : (![0, 0] : Fin 2 → Nat) = fun _ => 0 := funext fun a => by fin_cases a <;> rfl

/-- What the body leaves at `(p, q)` of the output block: the first block's entry there times the row block's entry `(0, q)`. -/
theorem out_apply (x0 : Vec F S256x4096 .f32) (x1 : Vec F S1x4096 .f32) (p : Fin 256) (q : Fin 4096) :
    out0_2 x0 x1 (ix2 p q) = FloatOps.mulf (x0 (ix2 p q)) (x1 (ix2 (0 : Fin 1) q)) := by
  unfold out0_2
  rw [canon2_eq]
  show FloatOps.mulf (View.ld x0 r0_0 (ix2_0 (ix2 p q))) (View.ld x1 r0_1 (ix2_1 (ix2 p q))) = _
  rw [View.ld_unit_zero (S := S256x4096) zeroOff, View.ld_unit_zero (S := S1x4096) zeroOff]
  have e0 : ix2_0 (ix2 p q) = ix2 p q := by
    funext a; match a with | ⟨0, _⟩ => rfl | ⟨1, _⟩ => rfl
  have e1 : ix2_1 (ix2 p q) = ix2 (0 : Fin 1) q := by
    funext a; match a with | ⟨0, _⟩ => rfl | ⟨1, _⟩ => rfl
  rw [e0, e1]

/-- The printed index maps over the grid: the input's block index is the result's, the row's is `(0, ·)` of it. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = 0
    ∧ win0_1.index t (1 : Fin 2) = win0_2.index t (1 : Fin 2) :=
  (by decide +kernel : ∀ t : Fin grid0.N, _)

/-- Every block index of the 2 × 16 box is some point's. -/
theorem idx_onto : ∀ (q0 : Fin 2) (q1 : Fin 16), ∃ t : Fin cfg0.N, win0_2.index t = ![q0.val, q1.val] :=
  (by decide +kernel : ∀ (q0 : Fin 2) (q1 : Fin 16), ∃ t : Fin grid0.N, win0_2.index t = ![q0.val, q1.val])

/-- WHAT POINT `t` WRITES BACK is its block of `rowScaled` of the input and the multiplier row as the region finds them. -/
theorem flushed_eq (c : Dev nD) (t : Fin cfg0.N) :
    (dats m 0 c).flushed 2 t
      = ((cfg0.win 2).blk t).view.read (Elt F) (rowScaled (V m c main_arg0) (V m c main_v50)) := by
  rw [flushed2]
  obtain ⟨e0, e1, e2, e3⟩ := idx_facts t
  funext j
  obtain ⟨p, q, rfl⟩ : ∃ (p : Fin 256) (q : Fin 4096), j = ix2 p q := ⟨j 0, j 1, eq_ix2 j⟩
  show out0_2 (iblk m c 0 t) (iblk m c 1 t) (ix2 p q)
    = FloatOps.mulf (V m c main_arg0 (((cfg0.win 2).blk t).view.emb (ix2 p q)))
        (V m c main_v50 (ix2 (0 : Fin 1) ((((cfg0.win 2).blk t).view.emb (ix2 p q)) 1)))
  refine (out_apply (iblk m c 0 t) (iblk m c 1 t) p q).trans ?_
  show FloatOps.mulf (V m c main_arg0 (((cfg0.win 0).blk t).view.emb (ix2 p q)))
        (V m c main_v50 (((cfg0.win 1).blk t).view.emb (ix2 (0 : Fin 1) q))) = _
  have h0 : ((cfg0.win 0).blk t).view.emb (ix2 p q) = ((cfg0.win 2).blk t).view.emb (ix2 p q) := by
    funext a; apply Fin.ext
    match a with
    | ⟨0, _⟩ => show win0_0.index t (0 : Fin 2) * 256 + 1 * p.val = win0_2.index t (0 : Fin 2) * 256 + 1 * p.val; omega
    | ⟨1, _⟩ => show win0_0.index t (1 : Fin 2) * 4096 + 1 * q.val = win0_2.index t (1 : Fin 2) * 4096 + 1 * q.val; omega
  have h1 : ((cfg0.win 1).blk t).view.emb (ix2 (0 : Fin 1) q)
      = ix2 (0 : Fin 1) ((((cfg0.win 2).blk t).view.emb (ix2 p q)) 1) := by
    funext a; apply Fin.ext
    match a with
    | ⟨0, _⟩ => show win0_1.index t (0 : Fin 2) * 1 + 1 * 0 = 0; omega
    | ⟨1, _⟩ => show win0_1.index t (1 : Fin 2) * 4096 + 1 * q.val = win0_2.index t (1 : Fin 2) * 4096 + 1 * q.val; omega
  rw [h0, h1]
  rfl

/-- An index of the result is in point `t`'s block iff each coordinate is in the block's range on its axis. -/
theorem mem_blk (t : Fin cfg0.N) (i : S512x65536.Idx) :
    i ∈ ((cfg0.win 2).blk t).view.set ↔ ∀ a : Fin 2, win0_2.index t a * S256x4096.size a ≤ (i a).val ∧ (i a).val < win0_2.index t a * S256x4096.size a + S256x4096.size a := by
  show i ∈ ((View.whole main_v51).slice (win0_2.rect t)).set ↔ _
  rw [View.set_slice_whole, Rect.mem_set_unit]
  exact Iff.rfl

/-- The blocks tile the result: `(i, j)` lies in the block at block index `(i / 256, j / 4096)`. -/
theorem cover (i : S512x65536.Idx) :
    ∃ t : Fin cfg0.N, (cfg0.win 2).flush t = true ∧ i ∈ ((cfg0.win 2).blk t).view.set := by
  have hi0 : (i 0).val < 512 := (i 0).isLt
  have hi1 : (i 1).val < 65536 := (i 1).isLt
  obtain ⟨t, ht⟩ := idx_onto ⟨(i 0).val / 256, by omega⟩ ⟨(i 1).val / 4096, by omega⟩
  have q0 : win0_2.index t (0 : Fin 2) = (i 0).val / 256 := congrFun ht 0
  have q1 : win0_2.index t (1 : Fin 2) = (i 1).val / 4096 := congrFun ht 1
  refine ⟨t, flush0_2 t, ?_⟩
  rw [mem_blk]
  intro a
  match a with
  | ⟨0, _⟩ => show win0_2.index t (0 : Fin 2) * 256 ≤ (i 0).val ∧ (i 0).val < win0_2.index t (0 : Fin 2) * 256 + 256; omega
  | ⟨1, _⟩ => show win0_2.index t (1 : Fin 2) * 4096 ≤ (i 1).val ∧ (i 1).val < win0_2.index t (1 : Fin 2) * 4096 + 4096; omega

/-- THE RESULT ARRAY after the run is `rowScaled` of the input and the multiplier row as the region finds them. -/
theorem final (c : Dev nD) :
    (dats m 0 c).arrAt 2 cfg0.N = rowScaled (V m c main_arg0) (V m c main_v50) :=
  (dats m 0 c).arrAt_eq_of_cover 2 (rowScaled (V m c main_arg0) (V m c main_v50)) (fun t _ => flushed_eq m c t) cover

end Cert.KernelIdeal.Blocks

end
-- ==== Proof.SharedMask.lean ====
/-
  The host computation both programs share, as named functions of the two coordinate arrays, and the output
  function the two programs are compared through.

  A trajectory sample `(a_x, a_y)` in the unit square is scaled by 256 on each axis; its cell is the pair of
  floors, its offset inside the cell the two fractional parts. A sample MARKS its cell when both fractional
  parts lie in [1/4, 3/4]. The cell coordinates are converted to integers, clamped to [0, 255] and flattened
  row-major (`256 · i_x + i_y`), a negative flat index wrapped by 65536; a scatter by signed maximum into a zero
  table of 65536 entries then holds 1 at every cell some sample marks and 0 elsewhere. The KEEP MASK is one
  minus that table, viewed 256 × 256, rotated a quarter turn (columns reversed, then transposed) and flattened
  again. The RESCALE factor of a mask `M` is `1 / (1 - (1 - (Σ M) / 65536))`: the reciprocal of the kept
  fraction.

  The output is `x[i, j] · (M[j] · s)` on the kernel's side (mask and factor multiplied on the host, the product
  applied in the kernel) and `(x[i, j] · M[j]) · s` on the reference's: one function by associativity of the
  product on the extended reals, which holds at the infinities too, so no finiteness is used.
-/
import proofs.«114950_j53300544143592_1_alg».proof.ReferenceIdeal
import Idealize.ShloMosaic.PureOps.Ideal
import Idealize.ShloMosaic.Lib.ValueIdx

noncomputable section

namespace Cert.SharedMask

open Idealize.ShloMosaic Idealize.ShloMosaic.ValueIdx Cert.ReferenceIdeal Cert.ReferenceIdeal.Facts₀

variable {F : FTy → Type} [FloatOps F] [Cert.ReferenceIdeal.Facts]

/-- A coordinate array scaled to cell units: `256 · a`. -/
def scaled (a : FVec F S64x1001 .f32) : FVec F S64x1001 .f32 :=
  mulf a (broadcastInDim S64x1001 ![] bcast_S_S64x1001 (constant S_ .f32 0x43800000#32))

/-- The cell coordinate, still a float: `⌊256 · a⌋`. -/
def cell (a : FVec F S64x1001 .f32) : FVec F S64x1001 .f32 := Host.floor (scaled a)

/-- The offset inside the cell: `256 · a - ⌊256 · a⌋`. -/
def frac (a : FVec F S64x1001 .f32) : FVec F S64x1001 .f32 := subf (scaled a) (cell a)

/-- A sample marks its cell when both offsets lie in [1/4, 3/4]. -/
def inBox (ax ay : FVec F S64x1001 .f32) : IVec S64x1001 1 :=
  andi
    (andi
      (andi (cmpf .oge (frac ax) (broadcastInDim S64x1001 ![] bcast_S_S64x1001 (constant S_ .f32 0x3E800000#32)))
        (cmpf .ole (frac ax) (broadcastInDim S64x1001 ![] bcast_S_S64x1001 (constant S_ .f32 0x3F400000#32))))
      (cmpf .oge (frac ay) (broadcastInDim S64x1001 ![] bcast_S_S64x1001 (constant S_ .f32 0x3E800000#32))))
    (cmpf .ole (frac ay) (broadcastInDim S64x1001 ![] bcast_S_S64x1001 (constant S_ .f32 0x3F400000#32)))

/-- An integer cell coordinate clamped to [0, 255]. -/
def clamp (z : IVec S64x1001 32) : IVec S64x1001 32 :=
  minsi (broadcastInDim S64x1001 ![] bcast_S_S64x1001 (id (constantI S_ 32 255#32)))
    (maxsi (broadcastInDim S64x1001 ![] bcast_S_S64x1001 (id (constantI S_ 32 0#32))) z)

/-- The flat cell index `256 · i_x + i_y` of every sample, the samples in row-major order. -/
def flatCell (ax ay : FVec F S64x1001 .f32) : IVec S64064 32 :=
  shapeCast S64064
    (addi (muli (clamp (fptosi 32 (cell ax))) (broadcastInDim S64x1001 ![] bcast_S_S64x1001 (constantI S_ 32 256#32)))
      (clamp (fptosi 32 (cell ay))))
    shapeCasts_S64x1001_S64064

/-- A negative flat index wrapped by the table's length. -/
def wrapped (fl : IVec S64064 32) : IVec S64064 32 :=
  select (cmpi .slt fl (broadcastInDim S64064 ![] bcast_S_S64064 (constantI S_ 32 0#32)))
    (addi fl (broadcastInDim S64064 ![] bcast_S_S64064 (constantI S_ 32 65536#32))) fl

/-- The table of marked cells: 1 where some sample marks the cell, 0 elsewhere (a scatter by signed maximum into zeros). -/
def touched (ax ay : FVec F S64x1001 .f32) : IVec S65536 32 :=
  Host.scatter scatter_S65536_S64064x1_S64064_n_0_0_1 IntOp.maxsi
    (broadcastInDim S65536 ![] bcast_S_S65536 (constantI S_ 32 0#32))
    (broadcastInDim S64064x1 ![0] bcast_S64064_S64064x1_0 (wrapped (flatCell ax ay)))
    (extui 32 (shapeCast S64064 (inBox ax ay) shapeCasts_S64x1001_S64064) natLt_1_32)

/-- The keep mask: one minus the table, rotated a quarter turn as a 256 × 256 grid, flat again. -/
def keepMask (ax ay : FVec F S64x1001 .f32) : FVec F S65536 .f32 :=
  shapeCast S65536
    (transpose S256x256 [1, 0]
      (Host.reverse [1]
        (shapeCast S256x256
          (subf (broadcastInDim S65536 ![] bcast_S_S65536 (constant S_ .f32 0x3F800000#32)) (sitofp .f32 (touched (F := F) ax ay)))
          shapeCasts_S65536_S256x256))
      transposes_S256x256_S256x256_1_0)
    shapeCasts_S256x256_S65536

/-- The sum of a mask's entries. -/
def total (M : FVec F S65536 .f32) : FVec F S_ .f32 :=
  Host.reduceAdd M (constant S_ .f32 0x00000000#32) reducesTo_S65536_S_d0 h_S_

/-- One minus the kept fraction. -/
def dropRate (M : FVec F S65536 .f32) : FVec F S_ .f32 :=
  subf (constant S_ .f32 0x3F800000#32) (Host.divf (total M) (constant S_ .f32 0x47800000#32))

/-- The rescale factor: the reciprocal of one minus the drop rate. -/
def rescale (M : FVec F S65536 .f32) : FVec F S_ .f32 :=
  Host.divf (constant S_ .f32 0x3F800000#32) (subf (constant S_ .f32 0x3F800000#32) (dropRate M))

/-- The output both programs compute, at the extended reals: entry `(i, j)` of the input times entry `j` of the
    mask times the factor, the mask and the factor grouped first. -/
def G (x : FVec Ideal S512x65536 .f32) (M : FVec Ideal S65536 .f32) (s : FVec Ideal S_ .f32) : FVec Ideal S512x65536 .f32 :=
  fun i => x i * (M (ix1 (i 1)) * s ix0)

/-- Grouping the input with the mask first gives the same entry: the product of extended reals is associative. -/
theorem G_assoc (x : FVec Ideal S512x65536 .f32) (M : FVec Ideal S65536 .f32) (s : FVec Ideal S_ .f32) (i : S512x65536.Idx) :
    (x i * M (ix1 (i 1))) * s ix0 = G x M s i := by
  unfold G
  exact mul_assoc _ _ _

end Cert.SharedMask

end
-- ==== Proof.KernelHost.lean ====
/-
  What the kernel's region finds in the one-row multiplier array: the host operations before the region compute
  the keep mask of the two coordinate arrays, its rescale factor, their product entry by entry, and view the
  65536 products as one row. Read off the fold of those operations over the launch contents.
-/
import proofs.«114950_j53300544143592_1_alg».proof.Proof.Gen.KernelIdeal.Frame
import proofs.«114950_j53300544143592_1_alg».proof.Proof.SharedMask
import Idealize.ShloMosaic.Lib.StableHlo.Run

noncomputable section

namespace Cert.KernelIdeal.HostRow

open Cert.KernelIdeal Cert.KernelIdeal.Gen Idealize.ShloMosaic Idealize.ShloMosaic.TcCoe Idealize.SL.Sem
open Cert.SharedMask

variable {F : FTy → Type} [FloatOps F] [Cert.ReferenceIdeal.Facts]

/-- The multiplier row of two coordinate arrays: mask times factor, entry by entry, as a 1 × 65536 array. -/
def row (ax ay : FVec F S64x1001 .f32) : FVec F S1x65536 .f32 :=
  shapeCast S1x65536
    (mulf (keepMask ax ay) (broadcastInDim S65536 ![] bcast_S_S65536 (rescale (keepMask ax ay))))
    shapeCasts_S65536_S1x65536

variable (m : (ℓ : Loc nD τ sig) → Buf (Elt F) ℓ)

attribute [local irreducible] Host.scatter Host.reduceAdd in
set_option maxRecDepth 16384 in
set_option maxHeartbeats 4000000 in
/-- The region finds the multiplier row of the launched coordinate arrays. -/
theorem V_row (c : Dev nD) :
    (V m c main_v50 : S1x65536.Idx → Elt F .f32)
      = row (m ((c : Thread nD τ).loc main_arg1)) (m ((c : Thread nD τ).loc main_arg2)) := by
  dsimp only [V]
  simp only [hostOps0, hostOps0_1, hostOps0_2, hostOps0_3, hostOps0_4, hostOps0_5, hostOps0_6, List.flatten_cons,
    List.flatten_nil, List.append_nil, List.cons_append, List.nil_append]
  after_results_simp
  rfl

end Cert.KernelIdeal.HostRow

end
-- ==== Proof.RefOps.lean ====
import proofs.«114950_j53300544143592_1_alg».proof.ReferenceIdeal
import Idealize.ShloMosaic.Lib.StableHlo.Run

noncomputable section

namespace Cert.ReferenceIdeal.Listed

open Cert.ReferenceIdeal Cert.ReferenceIdeal.Facts₀ Idealize.ShloMosaic Idealize.ShloMosaic.TcCoe Idealize.SL.Sem

variable {F : FTy → Type} [FloatOps F] [Cert.ReferenceIdeal.Facts]

/-- @main's operations, in order. -/
abbrev ops : List (HloOp τ sig (Elt F)) :=
  [ StableHlo.nullary main_cst (constant S_ .f32 0x43800000#32),
    StableHlo.unary main_cst main_v0 (broadcastInDim S64x1001 ![] bcast_S_S64x1001 : (⟨S_, .f32⟩ : BufTy).Contents (Elt F) → (⟨S64x1001, .f32⟩ : BufTy).Contents (Elt F)),
    StableHlo.binary main_arg1 main_v0 main_v1 (mulf : (⟨S64x1001, .f32⟩ : BufTy).Contents (Elt F) → (⟨S64x1001, .f32⟩ : BufTy).Contents (Elt F) → (⟨S64x1001, .f32⟩ : BufTy).Contents (Elt F)),
    StableHlo.nullary main_cst_0 (constant S_ .f32 0x43800000#32),
    StableHlo.unary main_cst_0 main_v2 (broadcastInDim S64x1001 ![] bcast_S_S64x1001 : (⟨S_, .f32⟩ : BufTy).Contents (Elt F) → (⟨S64x1001, .f32⟩ : BufTy).Contents (Elt F)),
    StableHlo.binary main_arg2 main_v2 main_v3 (mulf : (⟨S64x1001, .f32⟩ : BufTy).Contents (Elt F) → (⟨S64x1001, .f32⟩ : BufTy).Contents (Elt F) → (⟨S64x1001, .f32⟩ : BufTy).Contents (Elt F)),
    StableHlo.unary main_v1 main_v4 (Host.floor : (⟨S64x1001, .f32⟩ : BufTy).Contents (Elt F) → (⟨S64x1001, .f32⟩ : BufTy).Contents (Elt F)),
    StableHlo.unary main_v3 main_v5 (Host.floor : (⟨S64x1001, .f32⟩ : BufTy).Contents (Elt F) → (⟨S64x1001, .f32⟩ : BufTy).Contents (Elt F)),
    StableHlo.binary main_v1 main_v4 main_v6 (subf : (⟨S64x1001, .f32⟩ : BufTy).Contents (Elt F) → (⟨S64x1001, .f32⟩ : BufTy).Contents (Elt F) → (⟨S64x1001, .f32⟩ : BufTy).Contents (Elt F)),
    StableHlo.binary main_v3 main_v5 main_v7 (subf : (⟨S64x1001, .f32⟩ : BufTy).Contents (Elt F) → (⟨S64x1001, .f32⟩ : BufTy).Contents (Elt F) → (⟨S64x1001, .f32⟩ : BufTy).Contents (Elt F)),
    StableHlo.nullary main_cst_1 (constant S_ .f32 0x3E800000#32),
    StableHlo.unary main_cst_1 main_v8 (broadcastInDim S64x1001 ![] bcast_S_S64x1001 : (⟨S_, .f32⟩ : BufTy).Contents (Elt F) → (⟨S64x1001, .f32⟩ : BufTy).Contents (Elt F)),
    StableHlo.binary main_v6 main_v8 main_v9 (cmpf .oge : (⟨S64x1001, .f32⟩ : BufTy).Contents (Elt F) → (⟨S64x1001, .f32⟩ : BufTy).Contents (Elt F) → (⟨S64x1001, .i1⟩ : BufTy).Contents (Elt F)),
    StableHlo.nullary main_cst_2 (constant S_ .f32 0x3F400000#32),
    StableHlo.unary main_cst_2 main_v10 (broadcastInDim S64x1001 ![] bcast_S_S64x1001 : (⟨S_, .f32⟩ : BufTy).Contents (Elt F) → (⟨S64x1001, .f32⟩ : BufTy).Contents (Elt F)),
    StableHlo.binary main_v6 main_v10 main_v11 (cmpf .ole : (⟨S64x1001, .f32⟩ : BufTy).Contents (Elt F) → (⟨S64x1001, .f32⟩ : BufTy).Contents (Elt F) → (⟨S64x1001, .i1⟩ : BufTy).Contents (Elt F)),
    StableHlo.binary main_v9 main_v11 main_v12 (andi : (⟨S64x1001, .i1⟩ : BufTy).Contents (Elt F) → (⟨S64x1001, .i1⟩ : BufTy).Contents (Elt F) → (⟨S64x1001, .i1⟩ : BufTy).Contents (Elt F)),
    StableHlo.nullary main_cst_3 (constant S_ .f32 0x3E800000#32),
    StableHlo.unary main_cst_3 main_v13 (broadcastInDim S64x1001 ![] bcast_S_S64x1001 : (⟨S_, .f32⟩ : BufTy).Contents (Elt F) → (⟨S64x1001, .f32⟩ : BufTy).Contents (Elt F)),
    StableHlo.binary main_v7 main_v13 main_v14 (cmpf .oge : (⟨S64x1001, .f32⟩ : BufTy).Contents (Elt F) → (⟨S64x1001, .f32⟩ : BufTy).Contents (Elt F) → (⟨S64x1001, .i1⟩ : BufTy).Contents (Elt F)),
    StableHlo.binary main_v12 main_v14 main_v15 (andi : (⟨S64x1001, .i1⟩ : BufTy).Contents (Elt F) → (⟨S64x1001, .i1⟩ : BufTy).Contents (Elt F) → (⟨S64x1001, .i1⟩ : BufTy).Contents (Elt F)),
    StableHlo.nullary main_cst_4 (constant S_ .f32 0x3F400000#32),
    StableHlo.unary main_cst_4 main_v16 (broadcastInDim S64x1001 ![] bcast_S_S64x1001 : (⟨S_, .f32⟩ : BufTy).Contents (Elt F) → (⟨S64x1001, .f32⟩ : BufTy).Contents (Elt F)),
    StableHlo.binary main_v7 main_v16 main_v17 (cmpf .ole : (⟨S64x1001, .f32⟩ : BufTy).Contents (Elt F) → (⟨S64x1001, .f32⟩ : BufTy).Contents (Elt F) → (⟨S64x1001, .i1⟩ : BufTy).Contents (Elt F)),
    StableHlo.binary main_v15 main_v17 main_v18 (andi : (⟨S64x1001, .i1⟩ : BufTy).Contents (Elt F) → (⟨S64x1001, .i1⟩ : BufTy).Contents (Elt F) → (⟨S64x1001, .i1⟩ : BufTy).Contents (Elt F)),
    StableHlo.unary main_v4 main_v19 (fptosi 32 : (⟨S64x1001, .f32⟩ : BufTy).Contents (Elt F) → (⟨S64x1001, .i32⟩ : BufTy).Contents (Elt F)),
    StableHlo.nullary main_c (constantI S_ 32 0#32),
    StableHlo.nullary main_c_5 (constantI S_ 32 255#32),
    StableHlo.TRef.unary (.of main_c : StableHlo.TRef sig ⟨S_, .i32⟩) main_call0.v0 id,
    StableHlo.TRef.unary main_call0.v0 main_call0.v1 (broadcastInDim S64x1001 ![] bcast_S_S64x1001),
    StableHlo.TRef.binary main_call0.v1 (.of main_v19 : StableHlo.TRef sig ⟨S64x1001, .i32⟩) main_call0.v2 maxsi,
    StableHlo.TRef.unary (.of main_c_5 : StableHlo.TRef sig ⟨S_, .i32⟩) main_call0.v3 id,
    StableHlo.TRef.unary main_call0.v3 main_call0.v4 (broadcastInDim S64x1001 ![] bcast_S_S64x1001),
    StableHlo.TRef.binary main_call0.v4 main_call0.v2 main_call0.v5 minsi,
    StableHlo.unary main_v5 main_v21 (fptosi 32 : (⟨S64x1001, .f32⟩ : BufTy).Contents (Elt F) → (⟨S64x1001, .i32⟩ : BufTy).Contents (Elt F)),
    StableHlo.nullary main_c_6 (constantI S_ 32 0#32),
    StableHlo.nullary main_c_7 (constantI S_ 32 255#32),
    StableHlo.TRef.unary (.of main_c_6 : StableHlo.TRef sig ⟨S_, .i32⟩) main_call1.v0 id,
    StableHlo.TRef.unary main_call1.v0 main_call1.v1 (broadcastInDim S64x1001 ![] bcast_S_S64x1001),
    StableHlo.TRef.binary main_call1.v1 (.of main_v21 : StableHlo.TRef sig ⟨S64x1001, .i32⟩) main_call1.v2 maxsi,
    StableHlo.TRef.unary (.of main_c_7 : StableHlo.TRef sig ⟨S_, .i32⟩) main_call1.v3 id,
    StableHlo.TRef.unary main_call1.v3 main_call1.v4 (broadcastInDim S64x1001 ![] bcast_S_S64x1001),
    StableHlo.TRef.binary main_call1.v4 main_call1.v2 main_call1.v5 minsi,
    StableHlo.nullary main_c_8 (constantI S_ 32 256#32),
    StableHlo.unary main_c_8 main_v23 (broadcastInDim S64x1001 ![] bcast_S_S64x1001 : (⟨S_, .i32⟩ : BufTy).Contents (Elt F) → (⟨S64x1001, .i32⟩ : BufTy).Contents (Elt F)),
    StableHlo.binary main_v20 main_v23 main_v24 (muli : (⟨S64x1001, .i32⟩ : BufTy).Contents (Elt F) → (⟨S64x1001, .i32⟩ : BufTy).Contents (Elt F) → (⟨S64x1001, .i32⟩ : BufTy).Contents (Elt F)),
    StableHlo.binary main_v24 main_v22 main_v25 (addi : (⟨S64x1001, .i32⟩ : BufTy).Contents (Elt F) → (⟨S64x1001, .i32⟩ : BufTy).Contents (Elt F) → (⟨S64x1001, .i32⟩ : BufTy).Contents (Elt F)),
    StableHlo.reshape main_v25 main_v26 rfl shapeCasts_S64x1001_S64064,
    StableHlo.nullary main_c_9 (constantI S_ 32 0#32),
    StableHlo.unary main_c_9 main_v27 (broadcastInDim S65536 ![] bcast_S_S65536 : (⟨S_, .i32⟩ : BufTy).Contents (Elt F) → (⟨S65536, .i32⟩ : BufTy).Contents (Elt F)),
    StableHlo.reshape main_v18 main_v28 rfl shapeCasts_S64x1001_S64064,
    StableHlo.unary main_v28 main_v29 ((extui 32 · natLt_1_32) : (⟨S64064, .i1⟩ : BufTy).Contents (Elt F) → (⟨S64064, .i32⟩ : BufTy).Contents (Elt F)),
    StableHlo.nullary main_c_10 (constantI S_ 32 0#32),
    StableHlo.unary main_c_10 main_v30 (broadcastInDim S64064 ![] bcast_S_S64064 : (⟨S_, .i32⟩ : BufTy).Contents (Elt F) → (⟨S64064, .i32⟩ : BufTy).Contents (Elt F)),
    StableHlo.binary main_v26 main_v30 main_v31 (cmpi .slt : (⟨S64064, .i32⟩ : BufTy).Contents (Elt F) → (⟨S64064, .i32⟩ : BufTy).Contents (Elt F) → (⟨S64064, .i1⟩ : BufTy).Contents (Elt F)),
    StableHlo.nullary main_c_11 (constantI S_ 32 65536#32),
    StableHlo.unary main_c_11 main_v32 (broadcastInDim S64064 ![] bcast_S_S64064 : (⟨S_, .i32⟩ : BufTy).Contents (Elt F) → (⟨S64064, .i32⟩ : BufTy).Contents (Elt F)),
    StableHlo.binary main_v26 main_v32 main_v33 (addi : (⟨S64064, .i32⟩ : BufTy).Contents (Elt F) → (⟨S64064, .i32⟩ : BufTy).Contents (Elt F) → (⟨S64064, .i32⟩ : BufTy).Contents (Elt F)),
    StableHlo.ternary main_v31 main_v33 main_v26 main_v34 (select : (⟨S64064, .i1⟩ : BufTy).Contents (Elt F) → (⟨S64064, .i32⟩ : BufTy).Contents (Elt F) → (⟨S64064, .i32⟩ : BufTy).Contents (Elt F) → (⟨S64064, .i32⟩ : BufTy).Contents (Elt F)),
    StableHlo.unary main_v34 main_v35 (broadcastInDim S64064x1 ![0] bcast_S64064_S64064x1_0 : (⟨S64064, .i32⟩ : BufTy).Contents (Elt F) → (⟨S64064x1, .i32⟩ : BufTy).Contents (Elt F)),
    StableHlo.ternary main_v27 main_v35 main_v29 main_v36 ((fun x i u => Host.scatter scatter_S65536_S64064x1_S64064_n_0_0_1 IntOp.maxsi x i u) : (⟨S65536, .i32⟩ : BufTy).Contents (Elt F) → (⟨S64064x1, .i32⟩ : BufTy).Contents (Elt F) → (⟨S64064, .i32⟩ : BufTy).Contents (Elt F) → (⟨S65536, .i32⟩ : BufTy).Contents (Elt F)),
    StableHlo.unary main_v36 main_v37 (sitofp .f32 : (⟨S65536, .i32⟩ : BufTy).Contents (Elt F) → (⟨S65536, .f32⟩ : BufTy).Contents (Elt F)),
    StableHlo.nullary main_cst_12 (constant S_ .f32 0x3F800000#32),
    StableHlo.unary main_cst_12 main_v38 (broadcastInDim S65536 ![] bcast_S_S65536 : (⟨S_, .f32⟩ : BufTy).Contents (Elt F) → (⟨S65536, .f32⟩ : BufTy).Contents (Elt F)),
    StableHlo.binary main_v38 main_v37 main_v39 (subf : (⟨S65536, .f32⟩ : BufTy).Contents (Elt F) → (⟨S65536, .f32⟩ : BufTy).Contents (Elt F) → (⟨S65536, .f32⟩ : BufTy).Contents (Elt F)),
    StableHlo.reshape main_v39 main_v40 rfl shapeCasts_S65536_S256x256,
    StableHlo.TRef.unary (.of main_v40 : StableHlo.TRef sig ⟨S256x256, .f32⟩) main_call2.call0.v0 (Host.reverse [1]),
    StableHlo.TRef.unary main_call2.call0.v0 main_call2.v1 (transpose S256x256 [1, 0] · transposes_S256x256_S256x256_1_0),
    StableHlo.reshape main_v41 main_v42 rfl shapeCasts_S256x256_S65536,
    StableHlo.nullary main_cst_13 (constant S_ .f32 0x00000000#32),
    StableHlo.binary main_v42 main_cst_13 main_v43 ((fun x v => Host.reduceAdd x v reducesTo_S65536_S_d0 h_S_) : (⟨S65536, .f32⟩ : BufTy).Contents (Elt F) → (⟨S_, .f32⟩ : BufTy).Contents (Elt F) → (⟨S_, .f32⟩ : BufTy).Contents (Elt F)),
    StableHlo.nullary main_cst_14 (constant S_ .f32 0x47800000#32),
    StableHlo.binary main_v43 main_cst_14 main_v44 (Host.divf : (⟨S_, .f32⟩ : BufTy).Contents (Elt F) → (⟨S_, .f32⟩ : BufTy).Contents (Elt F) → (⟨S_, .f32⟩ : BufTy).Contents (Elt F)),
    StableHlo.nullary main_cst_15 (constant S_ .f32 0x3F800000#32),
    StableHlo.binary main_cst_15 main_v44 main_v45 (subf : (⟨S_, .f32⟩ : BufTy).Contents (Elt F) → (⟨S_, .f32⟩ : BufTy).Contents (Elt F) → (⟨S_, .f32⟩ : BufTy).Contents (Elt F)),
    StableHlo.unary main_v42 main_v46 (broadcastInDim S1x65536 ![1] bcast_S65536_S1x65536_1 : (⟨S65536, .f32⟩ : BufTy).Contents (Elt F) → (⟨S1x65536, .f32⟩ : BufTy).Contents (Elt F)),
    StableHlo.unary main_v46 main_v47 (broadcastInDim S512x65536 ![0, 1] bcast_S1x65536_S512x65536_0_1 : (⟨S1x65536, .f32⟩ : BufTy).Contents (Elt F) → (⟨S512x65536, .f32⟩ : BufTy).Contents (Elt F)),
    StableHlo.binary main_arg0 main_v47 main_v48 (mulf : (⟨S512x65536, .f32⟩ : BufTy).Contents (Elt F) → (⟨S512x65536, .f32⟩ : BufTy).Contents (Elt F) → (⟨S512x65536, .f32⟩ : BufTy).Contents (Elt F)),
    StableHlo.nullary main_cst_16 (constant S_ .f32 0x3F800000#32),
    StableHlo.binary main_cst_16 main_v45 main_v49 (subf : (⟨S_, .f32⟩ : BufTy).Contents (Elt F) → (⟨S_, .f32⟩ : BufTy).Contents (Elt F) → (⟨S_, .f32⟩ : BufTy).Contents (Elt F)),
    StableHlo.nullary main_cst_17 (constant S_ .f32 0x3F800000#32),
    StableHlo.binary main_cst_17 main_v49 main_v50 (Host.divf : (⟨S_, .f32⟩ : BufTy).Contents (Elt F) → (⟨S_, .f32⟩ : BufTy).Contents (Elt F) → (⟨S_, .f32⟩ : BufTy).Contents (Elt F)),
    StableHlo.unary main_v50 main_v51 (broadcastInDim S512x65536 ![] bcast_S_S512x65536 : (⟨S_, .f32⟩ : BufTy).Contents (Elt F) → (⟨S512x65536, .f32⟩ : BufTy).Contents (Elt F)),
    StableHlo.binary main_v48 main_v51 main_v52 (mulf : (⟨S512x65536, .f32⟩ : BufTy).Contents (Elt F) → (⟨S512x65536, .f32⟩ : BufTy).Contents (Elt F) → (⟨S512x65536, .f32⟩ : BufTy).Contents (Elt F)) ]

/-- Each operation touches TensorCore references only. -/
theorem ops_sub : (ops : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.reshape_bufs_sub .., StableHlo.nullary_bufs_sub .., StableHlo.unary_bufs_sub .., StableHlo.reshape_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.reshape_bufs_sub .., StableHlo.unary_bufs_sub .., StableHlo.unary_bufs_sub .., StableHlo.reshape_bufs_sub .., StableHlo.nullary_bufs_sub .., StableHlo.binary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.nullary_bufs_sub .., StableHlo.binary_bufs_sub .., StableHlo.unary_bufs_sub .., StableHlo.binary_bufs_sub ..⟩

end Cert.ReferenceIdeal.Listed

end
-- ==== Proof.RefRun.lean ====
/-
  The reference program is a straight line of host operations: its @main, the outlined functions' bodies written
  out at their calls, IS the listed sequence (`main_eq`), the program scopes no buffer and no semaphore, so every
  weakly fair execution from any memory terminates with every buffer at the fold of the operations' results over
  the launch contents (`run_all`).
-/
import proofs.«114950_j53300544143592_1_alg».proof.Proof.RefOps
import proofs.«114950_j53300544143592_1_alg».proof.Proof.Gen.ReferenceIdeal

noncomputable section

namespace Cert.ReferenceIdeal.Listed

open Cert.ReferenceIdeal Cert.ReferenceIdeal.Gen Idealize.ShloMosaic Idealize.ShloMosaic.TcCoe Idealize.SL.Sem Idealize.ShloMosaic.StableHlo

variable {F : FTy → Type} [FloatOps F]

-- eighty-four binds re-associated: the rewrite under the chain recurses once per statement
set_option maxRecDepth 4096 in
set_option maxHeartbeats 4000000 in
/-- @main is the listed straight line: the two windows and the functions' definitions unfolded, both sides are one
    chain of host steps once sequencing is reassociated. -/
theorem main_eq (c : Dev nD) : main (F := F) c = seq ops := by
  simp only [main, main_part0, main_part1, fn_clip.body, fn_flip.body, fn_rot90.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, and every final state has
    each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Listed

end
-- ==== Proof.RefValue.lean ====
/-
  What the reference leaves in its result: the input times the keep mask (broadcast along the rows), that
  product times the rescale factor (broadcast everywhere). Read off the fold of its operations.
-/
import proofs.«114950_j53300544143592_1_alg».proof.Proof.RefRun
import proofs.«114950_j53300544143592_1_alg».proof.Proof.SharedMask

noncomputable section

namespace Cert.ReferenceIdeal.Listed

open Cert.ReferenceIdeal Cert.ReferenceIdeal.Gen Idealize.ShloMosaic Idealize.ShloMosaic.TcCoe Idealize.SL.Sem Idealize.ShloMosaic.StableHlo
open Cert.SharedMask

variable {F : FTy → Type} [FloatOps F]

/-- The reference's result of an input and two coordinate arrays. -/
def out (x : FVec F S512x65536 .f32) (ax ay : FVec F S64x1001 .f32) : FVec F S512x65536 .f32 :=
  mulf
    (mulf x (broadcastInDim S512x65536 ![0, 1] bcast_S1x65536_S512x65536_0_1
      (broadcastInDim S1x65536 ![1] bcast_S65536_S1x65536_1 (keepMask ax ay))))
    (broadcastInDim S512x65536 ![] bcast_S_S512x65536 (rescale (keepMask ax ay)))

attribute [local irreducible] Host.scatter Host.reduceAdd in
set_option maxRecDepth 16384 in
set_option maxHeartbeats 4000000 in
/-- The fold at the result buffer is `out` of the launch contents of the three arguments. -/
theorem out_eq (V : Valuation τ sig (Elt F)) :
    (after ops V (main_v52 : DevRef τ sig) : S512x65536.Idx → Elt F .f32)
      = out (V (main_arg0 : DevRef τ sig)) (V (main_arg1 : DevRef τ sig)) (V (main_arg2 : DevRef τ sig)) := by
  after_results_simp
  rfl

set_option maxRecDepth 16384 in
set_option maxHeartbeats 4000000 in
theorem arg0_eq (V : Valuation τ sig (Elt F)) : after ops V (main_arg0 : DevRef τ sig) = V (main_arg0 : DevRef τ sig) := by
  after_results_simp
set_option maxRecDepth 16384 in
set_option maxHeartbeats 4000000 in
theorem arg1_eq (V : Valuation τ sig (Elt F)) : after ops V (main_arg1 : DevRef τ sig) = V (main_arg1 : DevRef τ sig) := by
  after_results_simp
set_option maxRecDepth 16384 in
set_option maxHeartbeats 4000000 in
theorem arg2_eq (V : Valuation τ sig (Elt F)) : after ops V (main_arg2 : DevRef τ sig) = V (main_arg2 : DevRef τ sig) := by
  after_results_simp

end Cert.ReferenceIdeal.Listed

end
-- ==== Proof.Bridge.lean ====
/-
  The two results, entry by entry, at the extended reals.

  Kernel: entry `(i, j)` is the input's entry times entry `(0, j)` of the multiplier row; the row is the 65536
  products `M[j] · s` viewed as one row (same row-major position), the factor `s` a scalar broadcast. So the entry
  is `x[i, j] · (M[j] · s)`.
  Reference: the mask is broadcast to one row and then down the 512 rows, so entry `(i, j)` of the first product is
  `x[i, j] · M[j]`; the factor is broadcast everywhere, so the result's entry is `(x[i, j] · M[j]) · s`.
  The two agree by associativity of the product.
-/
import proofs.«114950_j53300544143592_1_alg».proof.Proof.KernelBlocks
import proofs.«114950_j53300544143592_1_alg».proof.Proof.KernelHost
import proofs.«114950_j53300544143592_1_alg».proof.Proof.RefValue
import Idealize.ShloMosaic.Lib.Pipeline.Value

noncomputable section

namespace Cert.Bridge

open Idealize.ShloMosaic Idealize.ShloMosaic.ValueIdx Cert.SharedMask

variable [Cert.ReferenceIdeal.Facts]

/-- A scalar broadcast to any shape reads the scalar everywhere. -/
theorem scalar_bcast_apply {t : Shape} (h : Cert.ReferenceIdeal.S_.BroadcastsInDim t (![] : Fin 0 → Fin t.rank))
    (s : FVec Ideal Cert.ReferenceIdeal.S_ .f32) (j : t.Idx) :
    broadcastInDim t ![] h s j = s ix0 :=
  broadcastInDim_apply ![] h s j ix0 (fun a => a.elim0)

/-- The kernel's entry: input times (mask times factor). -/
theorem kernel_entry (x : FVec Ideal Cert.KernelIdeal.S512x65536 .f32) (M : FVec Ideal Cert.ReferenceIdeal.S65536 .f32)
    (s : FVec Ideal Cert.ReferenceIdeal.S_ .f32)
    (hb : Cert.ReferenceIdeal.S_.BroadcastsInDim Cert.KernelIdeal.S65536 (![] : Fin 0 → Fin Cert.KernelIdeal.S65536.rank))
    (hc : Cert.KernelIdeal.S65536.ShapeCasts Cert.KernelIdeal.S1x65536) (i : Cert.KernelIdeal.S512x65536.Idx) :
    Cert.KernelIdeal.Blocks.rowScaled (F := Ideal) x
        (shapeCast Cert.KernelIdeal.S1x65536 (mulf M (broadcastInDim Cert.KernelIdeal.S65536 ![] hb s)) hc) i
      = G x M s i := by
  unfold Cert.KernelIdeal.Blocks.rowScaled G
  have e : shapeCast Cert.KernelIdeal.S1x65536 (mulf M (broadcastInDim Cert.KernelIdeal.S65536 ![] hb s)) hc (ix2 (0 : Fin 1) (i 1))
      = M (ix1 (i 1)) * s ix0 := by
    refine (shapeCast_apply _ hc (ix2 (0 : Fin 1) (i 1)) (ix1 (i 1)) ?_).trans ?_
    · rw [Shape.rowMajor_val_one, Shape.rowMajor_val_two]
      show (i 1).val = 0 * 65536 + (i 1).val
      omega
    · rw [mulf_apply, scalar_bcast_apply]
  show x i * _ = _
  rw [e]

/-- The reference's entry: (input times mask) times factor. -/
theorem ref_entry (x : FVec Ideal Cert.ReferenceIdeal.S512x65536 .f32) (M : FVec Ideal Cert.ReferenceIdeal.S65536 .f32)
    (s : FVec Ideal Cert.ReferenceIdeal.S_ .f32)
    (h1 : Cert.ReferenceIdeal.S65536.BroadcastsInDim Cert.ReferenceIdeal.S1x65536 (![1] : Fin 1 → Fin Cert.ReferenceIdeal.S1x65536.rank))
    (h2 : Cert.ReferenceIdeal.S1x65536.BroadcastsInDim Cert.ReferenceIdeal.S512x65536 (![0, 1] : Fin 2 → Fin Cert.ReferenceIdeal.S512x65536.rank))
    (h3 : Cert.ReferenceIdeal.S_.BroadcastsInDim Cert.ReferenceIdeal.S512x65536 (![] : Fin 0 → Fin Cert.ReferenceIdeal.S512x65536.rank))
    (i : Cert.ReferenceIdeal.S512x65536.Idx) :
    mulf (mulf x (broadcastInDim Cert.ReferenceIdeal.S512x65536 ![0, 1] h2 (broadcastInDim Cert.ReferenceIdeal.S1x65536 ![1] h1 M)))
        (broadcastInDim Cert.ReferenceIdeal.S512x65536 ![] h3 s) i
      = G x M s i := by
  have e : broadcastInDim Cert.ReferenceIdeal.S512x65536 ![0, 1] h2 (broadcastInDim Cert.ReferenceIdeal.S1x65536 ![1] h1 M) i
      = M (ix1 (i 1)) := by
    refine (broadcastInDim_apply ![0, 1] h2 _ i (ix2 (0 : Fin 1) (i 1)) ?_).trans ?_
    · intro a
      match a with
      | ⟨0, _⟩ => show 0 = if (1 : Nat) = 1 then 0 else (i 0).val; rw [if_pos rfl]
      | ⟨1, _⟩ => show (i 1).val = if (65536 : Nat) = 1 then 0 else (i 1).val; rw [if_neg (by decide)]
    · refine broadcastInDim_apply ![1] h1 M (ix2 (0 : Fin 1) (i 1)) (ix1 (i 1)) ?_
      intro a
      match a with
      | ⟨0, _⟩ => show (i 1).val = if (65536 : Nat) = 1 then 0 else (i 1).val; rw [if_neg (by decide)]
  rw [mulf_apply, mulf_apply, e, scalar_bcast_apply]
  exact G_assoc x M s i

end Cert.Bridge

end
-- ==== Proof.lean ====
/-
  The kernel multiplies a 512 × 65536 input, block by block, by a one-row multiplier that the host computes from
  two 64 × 1001 coordinate arrays: a keep mask `M` over 65536 cells (a cell is dropped when some sample falls in its
  central box) times the reciprocal `s` of the kept fraction. The reference multiplies the input by the mask and
  then by the same factor. Both compute mask and factor by the same host operations on the same arrays, so they
  are carried as the same two functions; entry `(i, j)` is `x[i, j] · (M[j] · s)` on one side and
  `(x[i, j] · M[j]) · s` on the other, equal by associativity of the product of extended reals. The argument
  arrays are written by neither program. The idealization rewrote nothing, so `preserves` is trivial.
-/
import proofs.«114950_j53300544143592_1_alg».proof.Defs
import proofs.«114950_j53300544143592_1_alg».proof.Proof.Gen.Kernel.Frame
import proofs.«114950_j53300544143592_1_alg».proof.Proof.Gen.KernelIdeal.Frame
import proofs.«114950_j53300544143592_1_alg».proof.Proof.Gen.Pre_finite_inputs
import proofs.«114950_j53300544143592_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo
open Cert.SharedMask

theorem frame_k : Cert.frame_Kernel := fun m ρ _ => Cert.Kernel.Gen.frame m ρ

theorem frame_ki : Cert.frame_KernelIdeal := fun m ρ _ => Cert.KernelIdeal.Gen.frame m ρ

/-- The reference writes none of its arguments: each is, after the run, the fold of the operations at a buffer none
    of them writes. -/
theorem frame_ri : Cert.frame_ReferenceIdeal := fun m ρ _ =>
  (θ_run Cert.ReferenceIdeal.defs _ _).mono
    (fun _ h c => ⟨(h c Cert.ReferenceIdeal.main_arg0).trans (Cert.ReferenceIdeal.Listed.arg0_eq _),
      (h c Cert.ReferenceIdeal.main_arg1).trans (Cert.ReferenceIdeal.Listed.arg1_eq _),
      (h c Cert.ReferenceIdeal.main_arg2).trans (Cert.ReferenceIdeal.Listed.arg2_eq _)⟩)
    (Cert.ReferenceIdeal.Listed.run_all (F := Ideal) m ρ)

/-- Both results are `G` of the input, the keep mask of the coordinate arrays and the mask's rescale factor. -/
theorem algebraic : Cert.algebraic_KernelIdeal_ReferenceIdeal := by
  intro m ρ m' ρ' _ hagree
  refine ⟨fun c => G (m ((c.tc : Thread Cert.KernelIdeal.nD Cert.KernelIdeal.τ).loc Cert.KernelIdeal.main_arg0))
      (keepMask (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (rescale (keepMask (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))), ?_, ?_⟩
  · refine (θ_run Cert.KernelIdeal.defs _ _).mono (fun r h c => ⟨(h c).1.trans ?_, (h c).2⟩)
      (Cert.KernelIdeal.Value.run_blocks (F := Ideal) m ρ)
    rw [Cert.KernelIdeal.Blocks.final, Cert.KernelIdeal.Gen.V_main_arg0, Cert.KernelIdeal.HostRow.V_row]
    funext i
    exact Cert.Bridge.kernel_entry _ _ _ _ _ i
  · refine (θ_run Cert.ReferenceIdeal.defs _ _).mono (fun r h c => ⟨?_, ?_, ?_, ?_⟩)
      (Cert.ReferenceIdeal.Listed.run_all (F := Ideal) m' ρ')
    · refine (h c Cert.ReferenceIdeal.main_v52).trans ?_
      refine (Cert.ReferenceIdeal.Listed.out_eq (F := Ideal) (launchContents m' c)).trans ?_
      show Cert.ReferenceIdeal.Listed.out (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2)) = _
      rw [(hagree c).1, (hagree c).2.1, (hagree c).2.2]
      funext i
      exact Cert.Bridge.ref_entry _ _ _ _ _ _ i
    · exact (h c Cert.ReferenceIdeal.main_arg0).trans (Cert.ReferenceIdeal.Listed.arg0_eq _)
    · exact (h c Cert.ReferenceIdeal.main_arg1).trans (Cert.ReferenceIdeal.Listed.arg1_eq _)
    · exact (h c Cert.ReferenceIdeal.main_arg2).trans (Cert.ReferenceIdeal.Listed.arg2_eq _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
